-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1024x64 : Shape := ⟨2, ![1024, 64]⟩
abbrev S1024x1024 : Shape := ⟨2, ![1024, 1024]⟩
abbrev S1024x10 : Shape := ⟨2, ![1024, 10]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x10 : S_.BroadcastsInDim S1024x10 (![] : Fin 0 → Fin S1024x10.rank)
  reducesTo_S1024x10_S_d0_1 : S1024x10.ReducesTo [0, 1] S_

variable [Facts]

def fn_part2 {F : FTy → Type} [FloatOps F] (main_arg7 : FVec F S1024x1024 .f32) (main_arg8 : FVec F S1024x1024 .f32) (main_arg9 : FVec F S1024x10 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x10 .f32 := Host.absf main_arg9
  let main_cst_16 : FVec F S_ .f32 := constant S_ .f32 0x7F800000#32
  let main_v45 : FVec F S1024x10 .f32 := broadcastInDim S1024x10 ![] bcast_S_S1024x10 main_cst_16
  let main_v46 : IVec S1024x10 1 := cmpf .olt main_v44 main_v45
  let main_c_17 : IVec S_ 1 := constantI S_ 1 1#1
  let main_v47 : IVec S_ 1 := (fun x v => Host.reduce IntOp.andi x v reducesTo_S1024x10_S_d0_1 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x10 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x64 .f32) (main_arg1 : FVec F S1024x64 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x10 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S16384x64 : Shape := ⟨2, ![16384, 64]⟩
abbrev S1024x64 : Shape := ⟨2, ![1024, 64]⟩
abbrev S1024x1024 : Shape := ⟨2, ![1024, 1024]⟩
abbrev S1024x10 : Shape := ⟨2, ![1024, 10]⟩
abbrev S16384x10 : Shape := ⟨2, ![16384, 10]⟩
abbrev S2048x64 : Shape := ⟨2, ![2048, 64]⟩
abbrev S2048x10 : Shape := ⟨2, ![2048, 10]⟩
abbrev S2048x1024 : Shape := ⟨2, ![2048, 1024]⟩

abbrev nBuf : Space → Nat
  | .hbm => 20
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x10, .f32⟩
  | .hbm, ⟨10, _⟩ => ⟨S1024x64, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x10, .bf16⟩
  | .hbm, ⟨19, _⟩ => ⟨S16384x10, .f32⟩
  | .local _ .vmem, ⟨0, _⟩ => ⟨S2048x64, .f32⟩
  | .local _ .vmem, ⟨1, _⟩ => ⟨S2048x64, .f32⟩
  | .local _ .vmem, ⟨2, _⟩ => ⟨S1024x64, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x10, .bf16⟩
  | .local _ .vmem, ⟨11, _⟩ => ⟨S2048x10, .f32⟩
  | .local _ .vmem, ⟨12, _⟩ => ⟨S2048x10, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S2048x10_S2048x10_0_0 : ∀ a, (![0, 0] : Fin 2 → Nat) a + S2048x10.size a ≤ S2048x10.size a
  h_S2048x10 : 0 < S2048x10.numel
  dot_S2048x64_S1024x64_S2048x1024_1_1_0_0_n_n_wf : DotDims.WF S2048x64 S1024x64 S2048x1024 [1] [1] [0] [0] [] []
  dot_S2048x1024_S1024x1024_S2048x1024_1_1_0_0_n_n_wf : DotDims.WF S2048x1024 S1024x1024 S2048x1024 [1] [1] [0] [0] [] []
  dot_S2048x1024_S1024x10_S2048x10_1_0_0_1_n_n_wf : DotDims.WF S2048x1024 S1024x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x10.size a ≤ S1024x10.size a
  hwx0_9 : ∀ i : grid0.Coords, EltTy.bits .bf16 = 32 ∨ (Rect.block (s := S1024x10) S1024x10.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x10.size a ≤ S16384x10.size a
  hwx0_10 : ∀ i : grid0.Coords, EltTy.bits .f32 = 32 ∨ (Rect.block (s := S16384x10) S2048x10.size (cc0_transform_10 i) (hinb0_10 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S1024x10_S2048x10_1_0_0_1_n_n : DotDims S2048x1024 S1024x10 S2048x10 where
  lhsContracting := [1]
  rhsContracting := [0]
  lhsNonContracting := [0]
  rhsNonContracting := [1]
  lhsBatch := []
  rhsBatch := []
  wf := dot_S2048x1024_S1024x10_S2048x10_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S2048x10.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x64 : Shape := ⟨2, ![16384, 64]⟩
abbrev S1024x64 : Shape := ⟨2, ![1024, 64]⟩
abbrev S1024x1024 : Shape := ⟨2, ![1024, 1024]⟩
abbrev S1024x10 : Shape := ⟨2, ![1024, 10]⟩
abbrev S16384x1024 : Shape := ⟨2, ![16384, 1024]⟩
abbrev S_ : Shape := ⟨0, ![]⟩
abbrev S16384x10 : Shape := ⟨2, ![16384, 10]⟩

abbrev nBuf : Space → Nat
  | .hbm => 34
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x10, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x10, .f32⟩
  | .hbm, ⟨31, _⟩ => ⟨S_, .f32⟩
  | .hbm, ⟨32, _⟩ => ⟨S16384x10, .f32⟩
  | .hbm, ⟨33, _⟩ => ⟨S16384x10, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call2_cst : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call3_cst : Ref sig .tc := ⟨.hbm, 27, rfl⟩
abbrev main_call3_v0 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  bcast_S_S16384x10 : S_.BroadcastsInDim S16384x10 (![] : Fin 0 → Fin S16384x10.rank)
  dot_S16384x64_S1024x64_S16384x1024_1_1_0_0_n_n_wf : DotDims.WF S16384x64 S1024x64 S16384x1024 [1] [1] [0] [0] [] []
  dot_S16384x1024_S1024x1024_S16384x1024_1_1_0_0_n_n_wf : DotDims.WF S16384x1024 S1024x1024 S16384x1024 [1] [1] [0] [0] [] []
  dot_S16384x1024_S1024x10_S16384x10_1_0_0_1_n_n_wf : DotDims.WF S16384x1024 S1024x10 S16384x10 [1] [0] [0] [1] [] []

variable [Facts₀]

def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.Spec.lean ====
/-
  What both programs compute, as ONE function of the argument arrays, row by row.

  A batch row `b` of the input goes through four hidden layers and a linear read-out.  A hidden layer sends the
  rows `y` to `max((y · Pᵀ) · Wᵀ, 0)`: the entry at (b, o) is `max(Σ_h (Σ_i y[b,i] · P[h,i]) · W[o,h], 0)`.  The
  read-out sends `y` to `(y · β) · s`: the entry at (b, q) is `(Σ_h y[b,h] · β[h,q]) · s`, with `s` the scale
  (2⁻¹⁰ here).  Every sum is over one axis in its index order and nothing is re-associated, so the two programs
  are compared term by term and no finiteness of the inputs is used.

  Row `b` of every stage depends on row `b` of the input only.  That is stated once, `net_rows`: the network of
  a selection of rows is that selection of the network's rows.  It is what lets a tile of 2048 batch rows be
  computed from the same tile of the input.
-/
import Idealize.ShloMosaic.Lib.ValueIdx

noncomputable section

open scoped BigOperators

namespace Cert.Mlp

open Idealize.ShloMosaic Idealize.ShloMosaic.ValueIdx

/-- A rank-two array of extended reals as a matrix: the entry at row `r`, column `c`. -/
abbrev mat {a b : ℕ} (v : (⟨2, ![a, b]⟩ : Shape).Idx → EReal) : Fin a → Fin b → EReal := fun r c => v (ix2 r c)

/-- `y · Mᵀ`: row `b` of `y` against row `h` of `M`. -/
def rowsDot {B K H : ℕ} (y : Fin B → Fin K → EReal) (M : Fin H → Fin K → EReal) : Fin B → Fin H → EReal :=
  fun b h => ∑ k : Fin K, y b k * M h k

/-- One hidden layer: project on the rows of `P`, mix by the rows of `W`, clamp below at `0`. -/
def hidden {B K H : ℕ} (y : Fin B → Fin K → EReal) (P : Fin H → Fin K → EReal) (W : Fin H → Fin H → EReal) :
    Fin B → Fin H → EReal :=
  fun b o => max (rowsDot (rowsDot y P) W b o) 0

/-- The linear read-out `(y · β) · s`. -/
def readout {B H O : ℕ} (y : Fin B → Fin H → EReal) (β : Fin H → Fin O → EReal) (s : EReal) : Fin B → Fin O → EReal :=
  fun b q => (∑ k : Fin H, y b k * β k q) * s

/-- The whole network on the rows `x`. -/
def net {B D H O : ℕ} (x : Fin B → Fin D → EReal) (P0 : Fin H → Fin D → EReal) (W0 P1 W1 P2 W2 P3 W3 : Fin H → Fin H → EReal)
    (β : Fin H → Fin O → EReal) (s : EReal) : Fin B → Fin O → EReal :=
  readout (hidden (hidden (hidden (hidden x P0 W0) P1 W1) P2 W2) P3 W3) β s

/-- Rows do not mix: the network of the rows `x (r p)` is the network's row `r p`. -/
theorem net_rows {B B' D H O : ℕ} (r : Fin B' → Fin B) (x : Fin B → Fin D → EReal) (P0 : Fin H → Fin D → EReal)
    (W0 P1 W1 P2 W2 P3 W3 : Fin H → Fin H → EReal) (β : Fin H → Fin O → EReal) (s : EReal) (p : Fin B') (q : Fin O) :
    net (fun p' => x (r p')) P0 W0 P1 W1 P2 W2 P3 W3 β s p q = net x P0 W0 P1 W1 P2 W2 P3 W3 β s (r p) q := rfl

/-- The result array, index by index, as the network of the argument arrays read as matrices, at the scale
    the word `0x3A800000` denotes. -/
def result (x : (⟨2, ![16384, 64]⟩ : Shape).Idx → EReal) (P0 : (⟨2, ![1024, 64]⟩ : Shape).Idx → EReal)
    (W0 P1 W1 P2 W2 P3 W3 : (⟨2, ![1024, 1024]⟩ : Shape).Idx → EReal) (β : (⟨2, ![1024, 10]⟩ : Shape).Idx → EReal) :
    (⟨2, ![16384, 10]⟩ : Shape).Idx → EReal :=
  fun i => net (mat x) (mat P0) (mat W0) (mat P1) (mat W1) (mat P2) (mat W2) (mat P3) (mat W3) (mat β)
    (Ideal.ofBits .f32 0x3A800000#32) (i 0) (i 1)

end Cert.Mlp

end
-- ==== Proof.Scale.lean ====
/-
  The two float words of the read-out's scale, as the extended reals they denote, and the one law that joins
  the two programs there: the kernel multiplies by the word of 2⁻¹⁰, the reference divides by the word of
  1024, and on the extended reals a quotient by a nonzero real is the product with its reciprocal — at the
  infinities and at the junk value too, so nothing is asked of the dividend.
-/
import Idealize.ShloMosaic.PureOps.Ideal

noncomputable section

namespace Cert.Mlp

open Idealize.ShloMosaic

/-- The word `0x3A800000` (sign 0, exponent field 117, fraction 0) denotes 2⁻¹⁰ = 1/1024. -/
theorem word_inv_1024 : Ideal.ofBits .f32 0x3A800000#32 = ((1 / 1024 : ℝ) : EReal) := by
  simp [Ideal.ofBits, Ideal.ieee, -EReal.coe_mul]; norm_num

/-- The word `0x44800000` (sign 0, exponent field 137, fraction 0) denotes 2¹⁰ = 1024. -/
theorem word_1024 : Ideal.ofBits .f32 0x44800000#32 = ((1024 : ℝ) : EReal) := by
  simp [Ideal.ofBits, Ideal.ieee, -EReal.coe_mul]; norm_num

/-- Dividing by 1024 is multiplying by 1/1024, for every extended real. -/
theorem div_1024_eq_mul (z : EReal) :
    Ideal.div z (Ideal.ofBits .f32 0x44800000#32) = z * Ideal.ofBits .f32 0x3A800000#32 := by
  rw [word_1024, word_inv_1024]
  exact Ideal.div_coe (by norm_num : (1024 : ℝ) ≠ 0) z

end Cert.Mlp

end
-- ==== Proof.RefNet.lean ====
/-
  The reference, stage by stage, is the network of `Proof/Spec.lean`.

  Read as matrices: a product `y · Mᵀ` of the reference is `rowsDot` (the operand indices of output entry (b, h)
  at contraction position k are (b, k) and (h, k)); its `relu` is the maximum with the zero word's value, 0; its
  last product contracts the second operand's rows instead (operand indices (b, k) and (k, q)); and its closing
  quotient by the word of 1024 is the product with the word of 2⁻¹⁰ (`Proof/Scale.lean`).  Chained, the last
  stage is `Cert.Mlp.result` of the ten arguments.
-/
import proofs.«134725_j36756330120126_1_alg».proof.Proof.Gen.ReferenceIdeal.Read
import proofs.«134725_j36756330120126_1_alg».proof.Proof.Spec
import proofs.«134725_j36756330120126_1_alg».proof.Proof.Scale
import Idealize.ShloMosaic.PureOps.Ideal.Laws

noncomputable section

open scoped BigOperators

namespace Cert.ReferenceIdeal.AsNet

open Cert.ReferenceIdeal Cert.ReferenceIdeal.Read Idealize.ShloMosaic Idealize.ShloMosaic.ValueIdx Cert.Mlp

variable (x0 : (⟨S16384x64, .f32⟩ : BufTy).Contents (Elt Ideal)) (x1 : (⟨S1024x64, .f32⟩ : BufTy).Contents (Elt Ideal))
  (x2 x3 x4 x5 x6 x7 x8 : (⟨S1024x1024, .f32⟩ : BufTy).Contents (Elt Ideal)) (x9 : (⟨S1024x10, .f32⟩ : BufTy).Contents (Elt Ideal))

/-! ## The operand indices of the products, by coordinates -/

theorem l0 (b : Fin 16384) (h : Fin 1024) (k : Fin 64) : lidx_main_v0 (ix2 b h) k = ix2 b k :=
  funext fun a => by match a with | ⟨0, _⟩ => rfl | ⟨1, _⟩ => rfl
theorem r0 (b : Fin 16384) (h : Fin 1024) (k : Fin 64) : ridx_main_v0 (ix2 b h) k = ix2 h k :=
  funext fun a => by match a with | ⟨0, _⟩ => rfl | ⟨1, _⟩ => rfl

/-- Every square product of the reference reads its operands at the same places. -/
theorem lsq (b : Fin 16384) (h : Fin 1024) (k : Fin 1024) : lidx_main_v1 (ix2 b h) k = ix2 b k :=
  funext fun a => by match a with | ⟨0, _⟩ => rfl | ⟨1, _⟩ => rfl
theorem rsq (b : Fin 16384) (h : Fin 1024) (k : Fin 1024) : ridx_main_v1 (ix2 b h) k = ix2 h k :=
  funext fun a => by match a with | ⟨0, _⟩ => rfl | ⟨1, _⟩ => rfl

theorem l12 (b : Fin 16384) (q : Fin 10) (k : Fin 1024) : lidx_main_v12 (ix2 b q) k = ix2 b k :=
  funext fun a => by match a with | ⟨0, _⟩ => rfl | ⟨1, _⟩ => rfl
theorem r12 (b : Fin 16384) (q : Fin 10) (k : Fin 1024) : ridx_main_v12 (ix2 b q) k = ix2 k q :=
  funext fun a => by match a with | ⟨0, _⟩ => rfl | ⟨1, _⟩ => rfl

/-! ## The first hidden layer -/

theorem v0_mat : mat (val_main_v0 (F := Ideal) x0 x1) = rowsDot (mat x0) (mat x1) := by
  funext b h
  show val_main_v0 (F := Ideal) x0 x1 (ix2 b h) = ∑ k : Fin 64, x0 (ix2 b k) * x1 (ix2 h k)
  rw [val_main_v0_apply]
  exact Finset.sum_congr rfl fun k _ => by rw [l0, r0]

theorem v1_mat : mat (val_main_v1 (F := Ideal) x0 x1 x2) = rowsDot (mat (val_main_v0 (F := Ideal) x0 x1)) (mat x2) := by
  funext b h
  show val_main_v1 (F := Ideal) x0 x1 x2 (ix2 b h) = ∑ k : Fin 1024, val_main_v0 (F := Ideal) x0 x1 (ix2 b k) * x2 (ix2 h k)
  rw [val_main_v1_apply]
  exact Finset.sum_congr rfl fun k _ => by rw [lsq, rsq]

theorem v2_mat : mat (val_main_v2 (F := Ideal) x0 x1 x2) = hidden (mat x0) (mat x1) (mat x2) := by
  funext b o
  show val_main_v2 (F := Ideal) x0 x1 x2 (ix2 b o) = max (rowsDot (rowsDot (mat x0) (mat x1)) (mat x2) b o) 0
  rw [val_main_v2_apply, val_main_call0_v0_apply, val_main_call0_cst_apply, ← v0_mat, ← v1_mat]
  show max (val_main_v1 (F := Ideal) x0 x1 x2 (ix2 b o)) (Ideal.ofBits .f32 0x00000000#32) = _
  rw [Ideal.ofBits_zero_f32]

/-- An index built by matching on the axis equals the one built from the same coordinates. -/
local macro "coords" : tactic => `(tactic| exact funext fun a => by match a with | ⟨0, _⟩ => rfl | ⟨1, _⟩ => rfl)

/-! ## Hidden layer 2 -/

theorem v3_mat : mat (val_main_v3 (F := Ideal) x0 x1 x2 x3) = rowsDot (mat (val_main_v2 (F := Ideal) x0 x1 x2)) (mat x3) := by
  funext b h
  show val_main_v3 (F := Ideal) x0 x1 x2 x3 (ix2 b h) = ∑ k : Fin 1024, val_main_v2 (F := Ideal) x0 x1 x2 (ix2 b k) * x3 (ix2 h k)
  rw [val_main_v3_apply]
  refine Finset.sum_congr rfl fun k _ => ?_
  rw [show lidx_main_v3 (ix2 b h) k = ix2 b k by coords, show ridx_main_v3 (ix2 b h) k = ix2 h k by coords]

theorem v4_mat : mat (val_main_v4 (F := Ideal) x0 x1 x2 x3 x4) = rowsDot (mat (val_main_v3 (F := Ideal) x0 x1 x2 x3)) (mat x4) := by
  funext b h
  show val_main_v4 (F := Ideal) x0 x1 x2 x3 x4 (ix2 b h) = ∑ k : Fin 1024, val_main_v3 (F := Ideal) x0 x1 x2 x3 (ix2 b k) * x4 (ix2 h k)
  rw [val_main_v4_apply]
  refine Finset.sum_congr rfl fun k _ => ?_
  rw [show lidx_main_v4 (ix2 b h) k = ix2 b k by coords, show ridx_main_v4 (ix2 b h) k = ix2 h k by coords]

theorem v5_mat : mat (val_main_v5 (F := Ideal) x0 x1 x2 x3 x4) = hidden (mat (val_main_v2 (F := Ideal) x0 x1 x2)) (mat x3) (mat x4) := by
  funext b o
  show val_main_v5 (F := Ideal) x0 x1 x2 x3 x4 (ix2 b o) = max (rowsDot (rowsDot (mat (val_main_v2 (F := Ideal) x0 x1 x2)) (mat x3)) (mat x4) b o) 0
  rw [val_main_v5_apply, val_main_call1_v0_apply, val_main_call1_cst_apply, ← v3_mat, ← v4_mat]
  show max (val_main_v4 (F := Ideal) x0 x1 x2 x3 x4 (ix2 b o)) (Ideal.ofBits .f32 0x00000000#32) = _
  rw [Ideal.ofBits_zero_f32]

/-! ## Hidden layer 3 -/

theorem v6_mat : mat (val_main_v6 (F := Ideal) x0 x1 x2 x3 x4 x5) = rowsDot (mat (val_main_v5 (F := Ideal) x0 x1 x2 x3 x4)) (mat x5) := by
  funext b h
  show val_main_v6 (F := Ideal) x0 x1 x2 x3 x4 x5 (ix2 b h) = ∑ k : Fin 1024, val_main_v5 (F := Ideal) x0 x1 x2 x3 x4 (ix2 b k) * x5 (ix2 h k)
  rw [val_main_v6_apply]
  refine Finset.sum_congr rfl fun k _ => ?_
  rw [show lidx_main_v6 (ix2 b h) k = ix2 b k by coords, show ridx_main_v6 (ix2 b h) k = ix2 h k by coords]

theorem v7_mat : mat (val_main_v7 (F := Ideal) x0 x1 x2 x3 x4 x5 x6) = rowsDot (mat (val_main_v6 (F := Ideal) x0 x1 x2 x3 x4 x5)) (mat x6) := by
  funext b h
  show val_main_v7 (F := Ideal) x0 x1 x2 x3 x4 x5 x6 (ix2 b h) = ∑ k : Fin 1024, val_main_v6 (F := Ideal) x0 x1 x2 x3 x4 x5 (ix2 b k) * x6 (ix2 h k)
  rw [val_main_v7_apply]
  refine Finset.sum_congr rfl fun k _ => ?_
  rw [show lidx_main_v7 (ix2 b h) k = ix2 b k by coords, show ridx_main_v7 (ix2 b h) k = ix2 h k by coords]

theorem v8_mat : mat (val_main_v8 (F := Ideal) x0 x1 x2 x3 x4 x5 x6) = hidden (mat (val_main_v5 (F := Ideal) x0 x1 x2 x3 x4)) (mat x5) (mat x6) := by
  funext b o
  show val_main_v8 (F := Ideal) x0 x1 x2 x3 x4 x5 x6 (ix2 b o) = max (rowsDot (rowsDot (mat (val_main_v5 (F := Ideal) x0 x1 x2 x3 x4)) (mat x5)) (mat x6) b o) 0
  rw [val_main_v8_apply, val_main_call2_v0_apply, val_main_call2_cst_apply, ← v6_mat, ← v7_mat]
  show max (val_main_v7 (F := Ideal) x0 x1 x2 x3 x4 x5 x6 (ix2 b o)) (Ideal.ofBits .f32 0x00000000#32) = _
  rw [Ideal.ofBits_zero_f32]

/-! ## Hidden layer 4 -/

theorem v9_mat : mat (val_main_v9 (F := Ideal) x0 x1 x2 x3 x4 x5 x6 x7) = rowsDot (mat (val_main_v8 (F := Ideal) x0 x1 x2 x3 x4 x5 x6)) (mat x7) := by
  funext b h
  show val_main_v9 (F := Ideal) x0 x1 x2 x3 x4 x5 x6 x7 (ix2 b h) = ∑ k : Fin 1024, val_main_v8 (F := Ideal) x0 x1 x2 x3 x4 x5 x6 (ix2 b k) * x7 (ix2 h k)
  rw [val_main_v9_apply]
  refine Finset.sum_congr rfl fun k _ => ?_
  rw [show lidx_main_v9 (ix2 b h) k = ix2 b k by coords, show ridx_main_v9 (ix2 b h) k = ix2 h k by coords]

theorem v10_mat : mat (val_main_v10 (F := Ideal) x0 x1 x2 x3 x4 x5 x6 x7 x8) = rowsDot (mat (val_main_v9 (F := Ideal) x0 x1 x2 x3 x4 x5 x6 x7)) (mat x8) := by
  funext b h
  show val_main_v10 (F := Ideal) x0 x1 x2 x3 x4 x5 x6 x7 x8 (ix2 b h) = ∑ k : Fin 1024, val_main_v9 (F := Ideal) x0 x1 x2 x3 x4 x5 x6 x7 (ix2 b k) * x8 (ix2 h k)
  rw [val_main_v10_apply]
  refine Finset.sum_congr rfl fun k _ => ?_
  rw [show lidx_main_v10 (ix2 b h) k = ix2 b k by coords, show ridx_main_v10 (ix2 b h) k = ix2 h k by coords]

theorem v11_mat : mat (val_main_v11 (F := Ideal) x0 x1 x2 x3 x4 x5 x6 x7 x8) = hidden (mat (val_main_v8 (F := Ideal) x0 x1 x2 x3 x4 x5 x6)) (mat x7) (mat x8) := by
  funext b o
  show val_main_v11 (F := Ideal) x0 x1 x2 x3 x4 x5 x6 x7 x8 (ix2 b o) = max (rowsDot (rowsDot (mat (val_main_v8 (F := Ideal) x0 x1 x2 x3 x4 x5 x6)) (mat x7)) (mat x8) b o) 0
  rw [val_main_v11_apply, val_main_call3_v0_apply, val_main_call3_cst_apply, ← v9_mat, ← v10_mat]
  show max (val_main_v10 (F := Ideal) x0 x1 x2 x3 x4 x5 x6 x7 x8 (ix2 b o)) (Ideal.ofBits .f32 0x00000000#32) = _
  rw [Ideal.ofBits_zero_f32]

/-! ## The four layers together, the read-out and the scale -/

/-- After the fourth `relu` the reference holds the four hidden layers of the input. -/
theorem v11_net : mat (val_main_v11 (F := Ideal) x0 x1 x2 x3 x4 x5 x6 x7 x8)
    = hidden (hidden (hidden (hidden (mat x0) (mat x1) (mat x2)) (mat x3) (mat x4)) (mat x5) (mat x6)) (mat x7) (mat x8) := by
  rw [v11_mat, v8_mat, v5_mat, v2_mat]

/-- The read-out product contracts the rows of `β`. -/
theorem v12_mat : mat (val_main_v12 (F := Ideal) x0 x1 x2 x3 x4 x5 x6 x7 x8 x9)
    = fun b q => ∑ k : Fin 1024, mat (val_main_v11 (F := Ideal) x0 x1 x2 x3 x4 x5 x6 x7 x8) b k * mat x9 k q := by
  funext b q
  show val_main_v12 (F := Ideal) x0 x1 x2 x3 x4 x5 x6 x7 x8 x9 (ix2 b q) = ∑ k : Fin 1024, val_main_v11 (F := Ideal) x0 x1 x2 x3 x4 x5 x6 x7 x8 (ix2 b k) * x9 (ix2 k q)
  rw [val_main_v12_apply]
  refine Finset.sum_congr rfl fun k _ => ?_
  rw [l12, r12]

/-- THE REFERENCE IS THE NETWORK: its last stage, index by index, is `Cert.Mlp.result` of the ten arguments. -/
theorem ref_is_result : val_main_v14 (F := Ideal) x0 x1 x2 x3 x4 x5 x6 x7 x8 x9 = result x0 x1 x2 x3 x4 x5 x6 x7 x8 x9 := by
  funext i
  obtain ⟨b, q, rfl⟩ : ∃ (b : Fin 16384) (q : Fin 10), i = ix2 b q := ⟨i 0, i 1, eq_ix2 i⟩
  rw [val_main_v14_apply, val_main_v13_apply, val_main_cst_apply]
  show Ideal.div (val_main_v12 (F := Ideal) x0 x1 x2 x3 x4 x5 x6 x7 x8 x9 (ix2 b q)) (Ideal.ofBits .f32 0x44800000#32) = _
  rw [div_1024_eq_mul]
  show mat (val_main_v12 (F := Ideal) x0 x1 x2 x3 x4 x5 x6 x7 x8 x9) b q * _ = _
  rw [v12_mat, v11_net]
  rfl

end Cert.ReferenceIdeal.AsNet

end
-- ==== Proof.KernelDots.lean ====
/-
  The kernel's three matrix products at the ideal values, read at one entry.

  Each is a product into a zero accumulator with ONE contracted axis, so entry (r, c) is a plain sum over that
  axis.  The two products of a hidden layer contract the LAST axis of both operands (`y · Mᵀ`: left index (r, k),
  right index (c, k)); the read-out's contracts the left operand's last axis with the right operand's FIRST
  (`y · β`: left index (r, k), right index (k, c)).  The contraction index of the dimension record is one
  coordinate; the sums are re-indexed over `Fin K` through that identification.
-/
import proofs.«134725_j36756330120126_1_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ## The first projection: a [2048, 64] tile against the rows of a [1024, 64] matrix -/

theorem lhsIn_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem lhsIn_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhsIn_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem rhsIn_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- Entry (r, c) of the product into the zero accumulator: the sum over the contracted axis of the left operand's
    row `r` against the right operand's row `c`. -/
theorem atIn (l : FVec Ideal S2048x64 .bf16) (m : FVec Ideal S1024x64 .bf16) (r : Fin 2048) (c : Fin 1024) :
    matmul dot_S2048x64_S1024x64_S2048x1024_1_1_0_0_n_n none l m (constant S2048x1024 .f32 0x00000000#32) (ix2 r c)
      = ∑ k : Fin 64, l (ix2 r k) * m (ix2 c k) := by
  simp only [matmul]
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 r c) ((contrEquiv1 dot_S2048x64_S1024x64_S2048x1024_1_1_0_0_n_n 64 rfl rfl).symm k) = ix2 r k := funext fun a => Fin.ext (by
    match a with
    | ⟨0, _⟩ => exact lhsIn_0 _ _
    | ⟨1, _⟩ => exact (lhsIn_1 _ _).trans hk)
  have er : dot_S2048x64_S1024x64_S2048x1024_1_1_0_0_n_n.rhsIdx (ix2 r c) ((contrEquiv1 dot_S2048x64_S1024x64_S2048x1024_1_1_0_0_n_n 64 rfl rfl).symm k) = ix2 c k := funext fun a => Fin.ext (by
    match a with
    | ⟨0, _⟩ => exact rhsIn_0 _ _
    | ⟨1, _⟩ => exact (rhsIn_1 _ _).trans hk)
  rw [el, er]

/-! ## A square product: a [2048, 1024] tile against the rows of a [1024, 1024] matrix -/

theorem lhsSq_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhsSq_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhsSq_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhsSq_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- Entry (r, c) of the product into the zero accumulator: the sum over the contracted axis of the left operand's
    row `r` against the right operand's row `c`. -/
theorem atSq (l : FVec Ideal S2048x1024 .bf16) (m : FVec Ideal S1024x1024 .bf16) (r : Fin 2048) (c : Fin 1024) :
    matmul dot_S2048x1024_S1024x1024_S2048x1024_1_1_0_0_n_n none l m (constant S2048x1024 .f32 0x00000000#32) (ix2 r c)
      = ∑ k : Fin 1024, l (ix2 r k) * m (ix2 c k) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 r c) ((contrEquiv1 dot_S2048x1024_S1024x1024_S2048x1024_1_1_0_0_n_n 1024 rfl rfl).symm k) = ix2 r k := funext fun a => Fin.ext (by
    match a with
    | ⟨0, _⟩ => exact lhsSq_0 _ _
    | ⟨1, _⟩ => exact (lhsSq_1 _ _).trans hk)
  have er : dot_S2048x1024_S1024x1024_S2048x1024_1_1_0_0_n_n.rhsIdx (ix2 r c) ((contrEquiv1 dot_S2048x1024_S1024x1024_S2048x1024_1_1_0_0_n_n 1024 rfl rfl).symm k) = ix2 c k := funext fun a => Fin.ext (by
    match a with
    | ⟨0, _⟩ => exact rhsSq_0 _ _
    | ⟨1, _⟩ => exact (rhsSq_1 _ _).trans hk)
  rw [el, er]

/-! ## The read-out: a [2048, 1024] tile against the columns of a [1024, 10] matrix -/

theorem lhsOut_0 (i : S2048x10.Idx) (q : dot_S2048x1024_S1024x10_S2048x10_1_0_0_1_n_n.contr.Idx) :
    (dot_S2048x1024_S1024x10_S2048x10_1_0_0_1_n_n.lhsIdx i q 0).val = (i 0).val := by
  unfold DotDims.lhsIdx
  rw [dif_neg (show ¬(0 : Fin S2048x1024.rank) ∈ dot_S2048x1024_S1024x10_S2048x10_1_0_0_1_n_n.lhsBatch by decide), dif_pos (show (0 : Fin S2048x1024.rank) ∈ dot_S2048x1024_S1024x10_S2048x10_1_0_0_1_n_n.lhsNonContracting by decide)]
  rfl
theorem lhsOut_1 (i : S2048x10.Idx) (q : dot_S2048x1024_S1024x10_S2048x10_1_0_0_1_n_n.contr.Idx) :
    (dot_S2048x1024_S1024x10_S2048x10_1_0_0_1_n_n.lhsIdx i q 1).val = (q ⟨0, by decide⟩).val :=
  dot_S2048x1024_S1024x10_S2048x10_1_0_0_1_n_n.lhsIdx_val_of_single rfl i q
theorem rhsOut_0 (i : S2048x10.Idx) (q : dot_S2048x1024_S1024x10_S2048x10_1_0_0_1_n_n.contr.Idx) :
    (dot_S2048x1024_S1024x10_S2048x10_1_0_0_1_n_n.rhsIdx i q 0).val = (q ⟨0, by decide⟩).val :=
  dot_S2048x1024_S1024x10_S2048x10_1_0_0_1_n_n.rhsIdx_val_of_single rfl i q
theorem rhsOut_1 (i : S2048x10.Idx) (q : dot_S2048x1024_S1024x10_S2048x10_1_0_0_1_n_n.contr.Idx) :
    (dot_S2048x1024_S1024x10_S2048x10_1_0_0_1_n_n.rhsIdx i q 1).val = (i 1).val := by
  unfold DotDims.rhsIdx
  rw [dif_neg (show ¬(1 : Fin S1024x10.rank) ∈ dot_S2048x1024_S1024x10_S2048x10_1_0_0_1_n_n.rhsBatch by decide), dif_pos (show (1 : Fin S1024x10.rank) ∈ dot_S2048x1024_S1024x10_S2048x10_1_0_0_1_n_n.rhsNonContracting by decide)]
  rfl

/-- Entry (r, c) of the product into the zero accumulator: the sum over the contracted axis of the left operand's
    row `r` against the right operand's column `c`. -/
theorem atOut (l : FVec Ideal S2048x1024 .bf16) (m : FVec Ideal S1024x10 .bf16) (r : Fin 2048) (c : Fin 10) :
    matmul dot_S2048x1024_S1024x10_S2048x10_1_0_0_1_n_n none l m (constant S2048x10 .f32 0x00000000#32) (ix2 r c)
      = ∑ k : Fin 1024, l (ix2 r k) * m (ix2 k c) := by
  simp only [matmul]
  rw [Ideal.matmul_constant_zero_apply, ← Equiv.sum_comp (contrEquiv1 dot_S2048x1024_S1024x10_S2048x10_1_0_0_1_n_n 1024 rfl rfl).symm]
  refine Finset.sum_congr rfl fun k _ => ?_
  have hk := contrEquiv1_symm_val dot_S2048x1024_S1024x10_S2048x10_1_0_0_1_n_n 1024 rfl rfl k
  have el : dot_S2048x1024_S1024x10_S2048x10_1_0_0_1_n_n.lhsIdx (ix2 r c) ((contrEquiv1 dot_S2048x1024_S1024x10_S2048x10_1_0_0_1_n_n 1024 rfl rfl).symm k) = ix2 r k := funext fun a => Fin.ext (by
    match a with
    | ⟨0, _⟩ => exact lhsOut_0 _ _
    | ⟨1, _⟩ => exact (lhsOut_1 _ _).trans hk)
  have er : dot_S2048x1024_S1024x10_S2048x10_1_0_0_1_n_n.rhsIdx (ix2 r c) ((contrEquiv1 dot_S2048x1024_S1024x10_S2048x10_1_0_0_1_n_n 1024 rfl rfl).symm k) = ix2 k c := funext fun a => Fin.ext (by
    match a with
    | ⟨0, _⟩ => exact (rhsOut_0 _ _).trans hk
    | ⟨1, _⟩ => exact rhsOut_1 _ _)
  rw [el, er]

end Cert.KernelIdeal.Dots

end
-- ==== Proof.Tile.lean ====
/-
  One tile of 2048 batch rows through the kernel body, at the ideal values.

  The body's arithmetic is, on the tile `y₀` of the input (a change of float format is the identity here, and a
  shape cast to the same shape changes nothing): four times `y ↦ max((y · Pᵀ) · Wᵀ, 0)`, each product into a zero
  accumulator, then `(y · β) · s` with `s` the word of 2⁻¹⁰.  Read as matrices these are `hidden` and `readout` of
  `Proof/Spec.lean`, so the tile's result is `net` of the tile's rows and of the nine weight matrices whole.
-/
import proofs.«134725_j36756330120126_1_alg».proof.Proof.Gen.KernelIdeal.Skeleton
import proofs.«134725_j36756330120126_1_alg».proof.Proof.KernelDots
import proofs.«134725_j36756330120126_1_alg».proof.Proof.Spec
import Idealize.ShloMosaic.Lib.Pipeline.Value

noncomputable section

open scoped BigOperators

namespace Cert.KernelIdeal.Tile

open Cert.KernelIdeal Cert.KernelIdeal.Gen Cert.KernelIdeal.Dots Idealize.ShloMosaic Idealize.ShloMosaic.ValueIdx Cert.Mlp

/-! ## The body's three kinds of step -/

/-- A hidden layer entered on 64 columns (the first): project, mix, clamp at the zero word, narrow. -/
def layerIn (y : FVec Ideal S2048x64 .bf16) (P : FVec Ideal S1024x64 .bf16) (W : FVec Ideal S1024x1024 .bf16) :
    FVec Ideal S2048x1024 .bf16 :=
  truncf .bf16 (maximumf
    (matmul dot_S2048x1024_S1024x1024_S2048x1024_1_1_0_0_n_n none
      (truncf .bf16 (matmul dot_S2048x64_S1024x64_S2048x1024_1_1_0_0_n_n none y P (constant S2048x1024 .f32 0x00000000#32)) (by decide))
      W (constant S2048x1024 .f32 0x00000000#32))
    (broadcast S2048x1024 (Scalar.ofBits .f32 0x00000000#32))) (by decide)

/-- A hidden layer entered on 1024 columns (the other three). -/
def layerSq (y : FVec Ideal S2048x1024 .bf16) (P W : FVec Ideal S1024x1024 .bf16) : FVec Ideal S2048x1024 .bf16 :=
  truncf .bf16 (maximumf
    (matmul dot_S2048x1024_S1024x1024_S2048x1024_1_1_0_0_n_n none
      (truncf .bf16 (matmul dot_S2048x1024_S1024x1024_S2048x1024_1_1_0_0_n_n none y P (constant S2048x1024 .f32 0x00000000#32)) (by decide))
      W (constant S2048x1024 .f32 0x00000000#32))
    (broadcast S2048x1024 (Scalar.ofBits .f32 0x00000000#32))) (by decide)

/-- The read-out: the product with `β`, times the splat of the scale word. -/
def readTile (y : FVec Ideal S2048x1024 .bf16) (β : FVec Ideal S1024x10 .bf16) : FVec Ideal S2048x10 .f32 :=
  mulf (matmul dot_S2048x1024_S1024x10_S2048x10_1_0_0_1_n_n none y β (constant S2048x10 .f32 0x00000000#32))
    (broadcast S2048x10 (Scalar.ofBits .f32 0x3A800000#32))

/-! ## Each step as a matrix function -/

theorem layerIn_mat (y : FVec Ideal S2048x64 .bf16) (P : FVec Ideal S1024x64 .bf16) (W : FVec Ideal S1024x1024 .bf16) :
    mat (layerIn y P W) = hidden (mat y) (mat P) (mat W) := by
  funext r o
  show max (matmul dot_S2048x1024_S1024x1024_S2048x1024_1_1_0_0_n_n none
      (truncf .bf16 (matmul dot_S2048x64_S1024x64_S2048x1024_1_1_0_0_n_n none y P (constant S2048x1024 .f32 0x00000000#32)) (by decide))
      W (constant S2048x1024 .f32 0x00000000#32) (ix2 r o)) (Ideal.ofBits .f32 0x00000000#32)
    = max (∑ h : Fin 1024, (∑ i : Fin 64, y (ix2 r i) * P (ix2 h i)) * W (ix2 o h)) 0
  rw [atSq, Ideal.ofBits_zero_f32]
  refine congrArg (max · 0) (Finset.sum_congr rfl fun h _ => ?_)
  show matmul dot_S2048x64_S1024x64_S2048x1024_1_1_0_0_n_n none y P (constant S2048x1024 .f32 0x00000000#32) (ix2 r h) * W (ix2 o h) = _
  rw [atIn]

theorem layerSq_mat (y : FVec Ideal S2048x1024 .bf16) (P W : FVec Ideal S1024x1024 .bf16) :
    mat (layerSq y P W) = hidden (mat y) (mat P) (mat W) := by
  funext r o
  show max (matmul dot_S2048x1024_S1024x1024_S2048x1024_1_1_0_0_n_n none
      (truncf .bf16 (matmul dot_S2048x1024_S1024x1024_S2048x1024_1_1_0_0_n_n none y P (constant S2048x1024 .f32 0x00000000#32)) (by decide))
      W (constant S2048x1024 .f32 0x00000000#32) (ix2 r o)) (Ideal.ofBits .f32 0x00000000#32)
    = max (∑ h : Fin 1024, (∑ i : Fin 1024, y (ix2 r i) * P (ix2 h i)) * W (ix2 o h)) 0
  rw [atSq, Ideal.ofBits_zero_f32]
  refine congrArg (max · 0) (Finset.sum_congr rfl fun h _ => ?_)
  show matmul dot_S2048x1024_S1024x1024_S2048x1024_1_1_0_0_n_n none y P (constant S2048x1024 .f32 0x00000000#32) (ix2 r h) * W (ix2 o h) = _
  rw [atSq]

theorem readTile_mat (y : FVec Ideal S2048x1024 .bf16) (β : FVec Ideal S1024x10 .bf16) :
    mat (readTile y β) = readout (mat y) (mat β) (Ideal.ofBits .f32 0x3A800000#32) := by
  funext r q
  show matmul dot_S2048x1024_S1024x10_S2048x10_1_0_0_1_n_n none y β (constant S2048x10 .f32 0x00000000#32) (ix2 r q) * Ideal.ofBits .f32 0x3A800000#32
    = (∑ k : Fin 1024, y (ix2 r k) * β (ix2 k q)) * Ideal.ofBits .f32 0x3A800000#32
  rw [atOut]

/-! ## The generated payloads are these steps composed -/

theorem pay3_eq (v32 : Vec Ideal S1024x1024 .bf16) : k0_pay3 v32 = v32 := by
  unfold k0_pay3
  exact shapeCast_self _ _

theorem pay2_eq (v0 : FVec Ideal S2048x64 .f32) (v2 : Vec Ideal S1024x64 .bf16) (v4 v12 v14 v22 v24 : Vec Ideal S1024x1024 .bf16) :
    k0_pay2 v0 v2 v4 v12 v14 v22 v24
      = layerSq (layerSq (layerIn (truncf .bf16 v0 (by decide)) v2 v4) v12 v14) v22 v24 := by
  unfold k0_pay2 layerSq layerIn
  simp only [shapeCast_self]

theorem pay1_eq (v31 : FVec Ideal S2048x1024 .bf16) (v33 : FVec Ideal S1024x1024 .bf16) (v34 : Vec Ideal S1024x1024 .bf16)
    (v42 : Vec Ideal S1024x10 .bf16) :
    k0_pay1 v31 v33 v34 v42 = readTile (layerSq v31 v33 v34) v42 := by
  unfold k0_pay1 readTile layerSq
  simp only [shapeCast_self]

/-- THE TILE'S RESULT: the body's stored value, as a matrix, is the network of the tile's rows. -/
theorem tile_net (x0 : Vec Ideal S2048x64 .f32) (x1 : Vec Ideal S1024x64 .bf16) (x2 x3 x4 x5 x6 x7 x8 : Vec Ideal S1024x1024 .bf16)
    (x9 : Vec Ideal S1024x10 .bf16) :
    mat (k0_pay1 (k0_pay2 x0 x1 x2 x3 x4 x5 x6) (k0_pay3 x7) x8 x9)
      = net (mat x0) (mat x1) (mat x2) (mat x3) (mat x4) (mat x5) (mat x6) (mat x7) (mat x8) (mat x9)
          (Ideal.ofBits .f32 0x3A800000#32) := by
  rw [pay3_eq, pay2_eq, pay1_eq, readTile_mat, layerSq_mat, layerSq_mat, layerSq_mat, layerIn_mat]
  rfl

end Cert.KernelIdeal.Tile

end
-- ==== Proof.Whole.lean ====
/-
  From tiles to the whole result array.

  The grid has 8 points; point `t` stages rows `2048·t … 2048·t + 2047` of the input (all 64 columns) and of the
  result (all 10 columns), and every weight matrix whole, the same at every point.  Before the region the host
  narrows the nine weight arrays to bf16, which at the ideal values leaves them as they are.  So what point `t`
  writes back is the network of rows `2048·t + p` of the input — by `net_rows`, rows `2048·t + p` of the network
  of the whole input: block `t` of `Cert.Mlp.result`.  The eight blocks cover the result array (row `r` lies in
  block `r / 2048`), so after the run the array IS `result` of the ten arguments.
-/
import proofs.«134725_j36756330120126_1_alg».proof.Proof.Gen.KernelIdeal.Value
import proofs.«134725_j36756330120126_1_alg».proof.Proof.Tile
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Mlp
open Idealize.ShloMosaic.Pipeline (Dat)

variable (m : (ℓ : Loc nD τ sig) → Buf (Elt Ideal) ℓ) (ρ : Dev nD → PrngReg)

/-! ## The grid -/

theorem zero_off : (![0, 0] : Fin 2 → Nat) = fun _ => 0 := funext fun a => by fin_cases a <;> rfl

theorem point_lt (t : Fin cfg0.N) : t.val < 8 := lt_of_lt_of_eq t.isLt N_0

/-- The array row that row `p` of point `t`'s tile is. -/
def row (t : Fin cfg0.N) (p : Fin 2048) : Fin 16384 := ⟨t.val * 2048 + p.val, by have := point_lt t; have := p.isLt; omega⟩

/-- The printed index maps, decided over the 8 points: the input's and the result's block row is the point, their
    block column 0; every weight's block is (0, 0). -/
theorem index_maps : ∀ t : Fin cfg0.N, win0_0.index t (0 : Fin 2) = t.val
    ∧ win0_0.index t (1 : Fin 2) = 0
    ∧ win0_10.index t (0 : Fin 2) = t.val
    ∧ win0_10.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-! ## What the region finds in the weight windows' arrays: the arguments, narrowed, which changes nothing -/

theorem found1 (c : Dev nD) : (V m c main_v0 : S1024x64.Idx → EReal) = m ((c : Thread nD τ).loc main_arg1) := by
  dsimp only [Gen.V, Gen.hostOps0]; after_results; rfl

theorem found2 (c : Dev nD) : (V m c main_v1 : S1024x1024.Idx → EReal) = m ((c : Thread nD τ).loc main_arg2) := by
  dsimp only [Gen.V, Gen.hostOps0]; after_results; rfl

theorem found3 (c : Dev nD) : (V m c main_v2 : S1024x1024.Idx → EReal) = m ((c : Thread nD τ).loc main_arg3) := by
  dsimp only [Gen.V, Gen.hostOps0]; after_results; rfl

theorem found4 (c : Dev nD) : (V m c main_v3 : S1024x1024.Idx → EReal) = m ((c : Thread nD τ).loc main_arg4) := by
  dsimp only [Gen.V, Gen.hostOps0]; after_results; rfl

theorem found5 (c : Dev nD) : (V m c main_v4 : S1024x1024.Idx → EReal) = m ((c : Thread nD τ).loc main_arg5) := by
  dsimp only [Gen.V, Gen.hostOps0]; after_results; rfl

theorem found6 (c : Dev nD) : (V m c main_v5 : S1024x1024.Idx → EReal) = m ((c : Thread nD τ).loc main_arg6) := by
  dsimp only [Gen.V, Gen.hostOps0]; after_results; rfl

theorem found7 (c : Dev nD) : (V m c main_v6 : S1024x1024.Idx → EReal) = m ((c : Thread nD τ).loc main_arg7) := by
  dsimp only [Gen.V, Gen.hostOps0]; after_results; rfl

theorem found8 (c : Dev nD) : (V m c main_v7 : S1024x1024.Idx → EReal) = m ((c : Thread nD τ).loc main_arg8) := by
  dsimp only [Gen.V, Gen.hostOps0]; after_results; rfl

theorem found9 (c : Dev nD) : (V m c main_v8 : S1024x10.Idx → EReal) = m ((c : Thread nD τ).loc main_arg9) := by
  dsimp only [Gen.V, Gen.hostOps0]; after_results; rfl

/-! ## Where a tile's entries sit in the arrays -/

theorem at_in (t : Fin cfg0.N) (p : Fin 2048) (i : Fin 64) : ((cfg0.win 0).blk t).view.emb (ix2 p i) = ix2 (row t p) i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_0.index t (0 : Fin 2) * 2048 + 1 * p.val = t.val * 2048 + p.val; omega
  | ⟨1, _⟩ => show win0_0.index t (1 : Fin 2) * 64 + 1 * i.val = i.val; omega

theorem at_out (t : Fin cfg0.N) (p : Fin 2048) (q : Fin 10) : ((cfg0.win 10).blk t).view.emb (ix2 p q) = ix2 (row t p) q := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_10.index t (0 : Fin 2) * 2048 + 1 * p.val = t.val * 2048 + p.val; omega
  | ⟨1, _⟩ => show win0_10.index t (1 : Fin 2) * 10 + 1 * q.val = q.val; omega

theorem at_w1 (t : Fin cfg0.N) (h : Fin 1024) (i : Fin 64) : ((cfg0.win 1).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_1.index t (0 : Fin 2) * 1024 + 1 * h.val = h.val; omega
  | ⟨1, _⟩ => show win0_1.index t (1 : Fin 2) * 64 + 1 * i.val = i.val; omega

theorem at_w2 (t : Fin cfg0.N) (h : Fin 1024) (i : Fin 1024) : ((cfg0.win 2).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_2.index t (0 : Fin 2) * 1024 + 1 * h.val = h.val; omega
  | ⟨1, _⟩ => show win0_2.index t (1 : Fin 2) * 1024 + 1 * i.val = i.val; omega

theorem at_w3 (t : Fin cfg0.N) (h : Fin 1024) (i : Fin 1024) : ((cfg0.win 3).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_3.index t (0 : Fin 2) * 1024 + 1 * h.val = h.val; omega
  | ⟨1, _⟩ => show win0_3.index t (1 : Fin 2) * 1024 + 1 * i.val = i.val; omega

theorem at_w4 (t : Fin cfg0.N) (h : Fin 1024) (i : Fin 1024) : ((cfg0.win 4).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_4.index t (0 : Fin 2) * 1024 + 1 * h.val = h.val; omega
  | ⟨1, _⟩ => show win0_4.index t (1 : Fin 2) * 1024 + 1 * i.val = i.val; omega

theorem at_w5 (t : Fin cfg0.N) (h : Fin 1024) (i : Fin 1024) : ((cfg0.win 5).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_5.index t (0 : Fin 2) * 1024 + 1 * h.val = h.val; omega
  | ⟨1, _⟩ => show win0_5.index t (1 : Fin 2) * 1024 + 1 * i.val = i.val; omega

theorem at_w6 (t : Fin cfg0.N) (h : Fin 1024) (i : Fin 1024) : ((cfg0.win 6).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_6.index t (0 : Fin 2) * 1024 + 1 * h.val = h.val; omega
  | ⟨1, _⟩ => show win0_6.index t (1 : Fin 2) * 1024 + 1 * i.val = i.val; omega

theorem at_w7 (t : Fin cfg0.N) (h : Fin 1024) (i : Fin 1024) : ((cfg0.win 7).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_7.index t (0 : Fin 2) * 1024 + 1 * h.val = h.val; omega
  | ⟨1, _⟩ => show win0_7.index t (1 : Fin 2) * 1024 + 1 * i.val = i.val; omega

theorem at_w8 (t : Fin cfg0.N) (h : Fin 1024) (i : Fin 1024) : ((cfg0.win 8).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_8.index t (0 : Fin 2) * 1024 + 1 * h.val = h.val; omega
  | ⟨1, _⟩ => show win0_8.index t (1 : Fin 2) * 1024 + 1 * i.val = i.val; omega

theorem at_w9 (t : Fin cfg0.N) (h : Fin 1024) (i : Fin 10) : ((cfg0.win 9).blk t).view.emb (ix2 h i) = ix2 h i := by
  obtain ⟨e0r, e0c, eOr, eOc, e1r, e1c, e2r, e2c, e3r, e3c, e4r, e4c, e5r, e5c, e6r, e6c, e7r, e7c, e8r, e8c, e9r, e9c⟩ := index_maps t
  funext a; apply Fin.ext
  match a with
  | ⟨0, _⟩ => show win0_9.index t (0 : Fin 2) * 1024 + 1 * h.val = h.val; omega
  | ⟨1, _⟩ => show win0_9.index t (1 : Fin 2) * 10 + 1 * i.val = i.val; omega

/-! ## The staged blocks, as matrices of the arguments -/

/-- The input's tile at point `t`: rows `row t p` of the input argument. -/
theorem tile_in (c : Dev nD) (t : Fin cfg0.N) :
    mat (iblk m c 0 t) = fun p => mat (m ((c : Thread nD τ).loc main_arg0)) (row t p) := by
  funext p i
  show V m c main_arg0 (((cfg0.win 0).blk t).view.emb (ix2 p i)) = (m ((c : Thread nD τ).loc main_arg0)) (ix2 (row t p) i)
  rw [at_in, V_main_arg0]

theorem tile_w1 (c : Dev nD) (t : Fin cfg0.N) : mat (iblk m c 1 t) = mat (m ((c : Thread nD τ).loc main_arg1)) := by
  funext h i
  show (V m c main_v0 : S1024x64.Idx → EReal) (((cfg0.win 1).blk t).view.emb (ix2 h i)) = (m ((c : Thread nD τ).loc main_arg1)) (ix2 h i)
  rw [at_w1, found1]

theorem tile_w2 (c : Dev nD) (t : Fin cfg0.N) : mat (iblk m c 2 t) = mat (m ((c : Thread nD τ).loc main_arg2)) := by
  funext h i
  show (V m c main_v1 : S1024x1024.Idx → EReal) (((cfg0.win 2).blk t).view.emb (ix2 h i)) = (m ((c : Thread nD τ).loc main_arg2)) (ix2 h i)
  rw [at_w2, found2]

theorem tile_w3 (c : Dev nD) (t : Fin cfg0.N) : mat (iblk m c 3 t) = mat (m ((c : Thread nD τ).loc main_arg3)) := by
  funext h i
  show (V m c main_v2 : S1024x1024.Idx → EReal) (((cfg0.win 3).blk t).view.emb (ix2 h i)) = (m ((c : Thread nD τ).loc main_arg3)) (ix2 h i)
  rw [at_w3, found3]

theorem tile_w4 (c : Dev nD) (t : Fin cfg0.N) : mat (iblk m c 4 t) = mat (m ((c : Thread nD τ).loc main_arg4)) := by
  funext h i
  show (V m c main_v3 : S1024x1024.Idx → EReal) (((cfg0.win 4).blk t).view.emb (ix2 h i)) = (m ((c : Thread nD τ).loc main_arg4)) (ix2 h i)
  rw [at_w4, found4]

theorem tile_w5 (c : Dev nD) (t : Fin cfg0.N) : mat (iblk m c 5 t) = mat (m ((c : Thread nD τ).loc main_arg5)) := by
  funext h i
  show (V m c main_v4 : S1024x1024.Idx → EReal) (((cfg0.win 5).blk t).view.emb (ix2 h i)) = (m ((c : Thread nD τ).loc main_arg5)) (ix2 h i)
  rw [at_w5, found5]

theorem tile_w6 (c : Dev nD) (t : Fin cfg0.N) : mat (iblk m c 6 t) = mat (m ((c : Thread nD τ).loc main_arg6)) := by
  funext h i
  show (V m c main_v5 : S1024x1024.Idx → EReal) (((cfg0.win 6).blk t).view.emb (ix2 h i)) = (m ((c : Thread nD τ).loc main_arg6)) (ix2 h i)
  rw [at_w6, found6]

theorem tile_w7 (c : Dev nD) (t : Fin cfg0.N) : mat (iblk m c 7 t) = mat (m ((c : Thread nD τ).loc main_arg7)) := by
  funext h i
  show (V m c main_v6 : S1024x1024.Idx → EReal) (((cfg0.win 7).blk t).view.emb (ix2 h i)) = (m ((c : Thread nD τ).loc main_arg7)) (ix2 h i)
  rw [at_w7, found7]

theorem tile_w8 (c : Dev nD) (t : Fin cfg0.N) : mat (iblk m c 8 t) = mat (m ((c : Thread nD τ).loc main_arg8)) := by
  funext h i
  show (V m c main_v7 : S1024x1024.Idx → EReal) (((cfg0.win 8).blk t).view.emb (ix2 h i)) = (m ((c : Thread nD τ).loc main_arg8)) (ix2 h i)
  rw [at_w8, found8]

theorem tile_w9 (c : Dev nD) (t : Fin cfg0.N) : mat (iblk m c 9 t) = mat (m ((c : Thread nD τ).loc main_arg9)) := by
  funext h i
  show (V m c main_v8 : S1024x10.Idx → EReal) (((cfg0.win 9).blk t).view.emb (ix2 h i)) = (m ((c : Thread nD τ).loc main_arg9)) (ix2 h i)
  rw [at_w9, found9]

/-! ## What a point writes back, the cover, the array after the run -/

/-- WHAT POINT `t` WRITES BACK is block `t` of `result` of the ten arguments. -/
theorem flushed_is_result (c : Dev nD) (t : Fin cfg0.N) :
    (dats m 0 c).flushed 10 t
      = ((cfg0.win 10).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed10]
  unfold out0_10
  rw [View.canon_unit_zero zero_off]
  simp only [View.ld_unit_zero (S := S2048x64) zero_off, View.ld_unit_zero (S := S1024x64) zero_off,
    View.ld_unit_zero (S := S1024x1024) zero_off, View.ld_unit_zero (S := S1024x10) zero_off]
  funext j
  obtain ⟨p, q, rfl⟩ : ∃ (p : Fin 2048) (q : Fin 10), j = ix2 p q := ⟨j 0, j 1, eq_ix2 j⟩
  show mat (k0_pay1 (k0_pay2 (iblk m c 0 t) (iblk m c 1 t) (iblk m c 2 t) (iblk m c 3 t) (iblk m c 4 t) (iblk m c 5 t) (iblk m c 6 t))
      (k0_pay3 (iblk m c 7 t)) (iblk m c 8 t) (iblk m c 9 t)) p q
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb (ix2 p q))
  rw [Tile.tile_net (iblk m c 0 t) (iblk m c 1 t) (iblk m c 2 t) (iblk m c 3 t) (iblk m c 4 t) (iblk m c 5 t) (iblk m c 6 t)
      (iblk m c 7 t) (iblk m c 8 t) (iblk m c 9 t),
    tile_in, tile_w1, tile_w2, tile_w3, tile_w4, tile_w5, tile_w6, tile_w7, tile_w8, tile_w9, at_out]
  rfl

/-- An index of the result array is in point `t`'s block iff each coordinate is in the block's range on its axis. -/
theorem mem_block (t : Fin cfg0.N) (i : S16384x10.Idx) :
    i ∈ ((cfg0.win 10).blk t).view.set ↔ ∀ a : Fin 2, win0_10.index t a * S2048x10.size a ≤ (i a).val ∧ (i a).val < win0_10.index t a * S2048x10.size a + S2048x10.size a := by
  show i ∈ ((View.whole main_v9).slice (win0_10.rect t)).set ↔ _
  rw [View.set_slice_whole, Rect.mem_set_unit]
  exact Iff.rfl

/-- THE COVER: row `r` of the result lies in the block of point `r / 2048`, and every point writes back. -/
theorem covered (i : S16384x10.Idx) : ∃ t : Fin cfg0.N, (cfg0.win 10).flush t = true ∧ i ∈ ((cfg0.win 10).blk t).view.set := by
  have hi0 : (i 0).val < 16384 := (i 0).isLt
  have hi1 : (i 1).val < 10 := (i 1).isLt
  have hN : cfg0.N = 8 := N_0
  obtain ⟨t, ht⟩ : ∃ t : Fin cfg0.N, t.val = (i 0).val / 2048 := ⟨⟨(i 0).val / 2048, by omega⟩, rfl⟩
  obtain ⟨e0r, e0c, eOr, eOc, e1r, e1c, e2r, e2c, e3r, e3c, e4r, e4c, e5r, e5c, e6r, e6c, e7r, e7c, e8r, e8c, e9r, e9c⟩ := index_maps t
  refine ⟨t, flush0_10 t, ?_⟩
  rw [mem_block]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 10 ≤ (i 1).val ∧ (i 1).val < win0_10.index t (1 : Fin 2) * 10 + 10; omega

/-- THE RESULT ARRAY after the run is `result` of the ten arguments. -/
theorem final (c : Dev nD) :
    (dats m 0 c).arrAt 10 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun t _ => flushed_is_result m c t) covered

/-! ## The run, read -/

/-- Every weakly fair execution of the idealized kernel terminates with the result array at `result` of the
    arguments and the arguments unchanged. -/
theorem run : θ_run defs (onTc (τ := τ) (main (F := Ideal))) ⟨m, fun _ => 0, ρ⟩ fun r => ∀ c : Dev nD,
      r.2.mem ((c : Thread nD τ).loc main_v9) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.lean ====
/-
  A four-layer row-wise network with a linear read-out, tiled over the batch, against its plain jnp reference.

  Both programs send each batch row `x[b, ·]` through four hidden layers `y ↦ max((y · Pₗᵀ) · Wₗᵀ, 0)` and then
  to `(y · β) / 1024`.  The kernel works on tiles of 2048 rows, one per grid point, with the weights narrowed to
  bf16 on the host and the activations narrowed between the products; it multiplies by the constant 2⁻¹⁰ where
  the reference divides by 1024.  At the ideal values a change of float format is the identity, a product into a
  zero accumulator is the plain sum the reference's `dot_general` is, 2⁻¹⁰ is exactly the reciprocal of 1024, and
  a quotient by a nonzero real is the product with its reciprocal on every extended real.  So both are the one
  function `Cert.Mlp.result` of the ten arguments (Proof/Spec.lean), summand by summand in the same order: no sum
  is re-associated, and the finiteness of the inputs is never used.

  Proof/Scale.lean      the two scale words and the quotient-is-product law
  Proof/Spec.lean       the network as one function, and that rows do not mix
  Proof/RefNet.lean     the reference's last stage is `result`
  Proof/KernelDots.lean the kernel's three matrix products at an entry
  Proof/Tile.lean       one tile through the kernel body is the network of the tile's rows
  Proof/Whole.lean      the eight tiles cover the result array, which ends at `result`
-/
import proofs.«134725_j36756330120126_1_alg».proof.Defs
import proofs.«134725_j36756330120126_1_alg».proof.Proof.Gen.Kernel
import proofs.«134725_j36756330120126_1_alg».proof.Proof.Gen.Kernel.Skeleton
import proofs.«134725_j36756330120126_1_alg».proof.Proof.Gen.Kernel.Launch
import proofs.«134725_j36756330120126_1_alg».proof.Proof.Gen.Kernel.Points
import proofs.«134725_j36756330120126_1_alg».proof.Proof.Gen.Kernel.Frame
import proofs.«134725_j36756330120126_1_alg».proof.Proof.Gen.KernelIdeal
import proofs.«134725_j36756330120126_1_alg».proof.Proof.Gen.KernelIdeal.Skeleton
import proofs.«134725_j36756330120126_1_alg».proof.Proof.Gen.KernelIdeal.Launch
import proofs.«134725_j36756330120126_1_alg».proof.Proof.Gen.KernelIdeal.Points
import proofs.«134725_j36756330120126_1_alg».proof.Proof.Gen.KernelIdeal.Frame
import proofs.«134725_j36756330120126_1_alg».proof.Proof.Gen.ReferenceIdeal
import proofs.«134725_j36756330120126_1_alg».proof.Proof.Gen.Pre_finite_inputs
import proofs.«134725_j36756330120126_1_alg».proof.Proof.Gen.KernelIdeal.Value
import proofs.«134725_j36756330120126_1_alg».proof.Proof.Gen.ReferenceIdeal.Run
import proofs.«134725_j36756330120126_1_alg».proof.Proof.Gen.ReferenceIdeal.Read
import proofs.«134725_j36756330120126_1_alg».proof.Proof.RefNet
import proofs.«134725_j36756330120126_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the result array at
    `Cert.Mlp.result` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v14_eq, Cert.ReferenceIdeal.AsNet.ref_is_result,
    h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
